-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S1024x256 : Shape := ⟨2, ![1024, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S16384x256 .f32) (main_arg1 : FVec F S1024x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S16384x256 : Shape := ⟨2, ![16384, 256]⟩
abbrev S1024x256 : Shape := ⟨2, ![1024, 256]⟩
abbrev S4096x256 : Shape := ⟨2, ![4096, 256]⟩
abbrev S256x256 : Shape := ⟨2, ![256, 256]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S1024x256, .bf16⟩
  | .hbm, ⟨3, _⟩ => ⟨S16384x256, .f32⟩
  | .local _ .vmem, ⟨0, _⟩ => ⟨S4096x256, .f32⟩
  | .local _ .vmem, ⟨1, _⟩ => ⟨S4096x256, .f32⟩
  | .local _ .vmem, ⟨2, _⟩ => ⟨S1024x256, .bf16⟩
  | .local _ .vmem, ⟨3, _⟩ => ⟨S4096x256, .f32⟩
  | .local _ .vmem, ⟨4, _⟩ => ⟨S4096x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S4096x256_S256x256_0_0 : ∀ a, (![0, 0] : Fin 2 → Nat) a + S256x256.size a ≤ S4096x256.size a
  h_S256x256 : 0 < S256x256.numel
  reduces_S256x1024_S256 : S256x1024.Reduces [1] S256
  shapeCasts_S256_S256x1 : S256.ShapeCasts S256x1
  broadcasts_S256x1_S256x1024 : S256x1.Broadcasts S256x1024
  broadcasts_S256x1_S256x256 : S256x1.Broadcasts S256x256
  inb_S4096x256_S256x256_256_0 : ∀ a, (![256, 0] : Fin 2 → Nat) a + S256x256.size a ≤ S4096x256.size a
  inb_S4096x256_S256x256_512_0 : ∀ a, (![512, 0] : Fin 2 → Nat) a + S256x256.size a ≤ S4096x256.size a
  inb_S4096x256_S256x256_768_0 : ∀ a, (![768, 0] : Fin 2 → Nat) a + S256x256.size a ≤ S4096x256.size a
  inb_S4096x256_S256x256_1024_0 : ∀ a, (![1024, 0] : Fin 2 → Nat) a + S256x256.size a ≤ S4096x256.size a
  inb_S4096x256_S256x256_1280_0 : ∀ a, (![1280, 0] : Fin 2 → Nat) a + S256x256.size a ≤ S4096x256.size a
  inb_S4096x256_S256x256_1536_0 : ∀ a, (![1536, 0] : Fin 2 → Nat) a + S256x256.size a ≤ S4096x256.size a
  inb_S4096x256_S256x256_1792_0 : ∀ a, (![1792, 0] : Fin 2 → Nat) a + S256x256.size a ≤ S4096x256.size a
  inb_S4096x256_S256x256_2048_0 : ∀ a, (![2048, 0] : Fin 2 → Nat) a + S256x256.size a ≤ S4096x256.size a
  inb_S4096x256_S256x256_2304_0 : ∀ a, (![2304, 0] : Fin 2 → Nat) a + S256x256.size a ≤ S4096x256.size a
  inb_S4096x256_S256x256_2560_0 : ∀ a, (![2560, 0] : Fin 2 → Nat) a + S256x256.size a ≤ S4096x256.size a
  inb_S4096x256_S256x256_2816_0 : ∀ a, (![2816, 0] : Fin 2 → Nat) a + S256x256.size a ≤ S4096x256.size a
  inb_S4096x256_S256x256_3072_0 : ∀ a, (![3072, 0] : Fin 2 → Nat) a + S256x256.size a ≤ S4096x256.size a
  inb_S4096x256_S256x256_3328_0 : ∀ a, (![3328, 0] : Fin 2 → Nat) a + S256x256.size a ≤ S4096x256.size a
  inb_S4096x256_S256x256_3584_0 : ∀ a, (![3584, 0] : Fin 2 → Nat) a + S256x256.size a ≤ S4096x256.size a
  inb_S4096x256_S256x256_3840_0 : ∀ a, (![3840, 0] : Fin 2 → Nat) a + S256x256.size a ≤ S4096x256.size a
  dot_S256x256_S1024x256_S256x1024_1_1_0_0_n_n_wf : DotDims.WF S256x256 S1024x256 S256x1024 [1] [1] [0] [0] [] []
  dot_S256x1024_S1024x256_S256x256_1_0_0_1_n_n_wf : DotDims.WF S256x1024 S1024x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S16384x256.size a
  hwx0_0 : ∀ i : grid0.Coords, EltTy.bits .f32 = 32 ∨ (Rect.block (s := S16384x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S16384x256.size a
  hwx0_2 : ∀ i : grid0.Coords, EltTy.bits .f32 = 32 ∨ (Rect.block (s := S16384x256) S4096x256.size (cc0_transform_2 i) (hinb0_2 i)).WholeWords (EltTy.packing .f32)

variable [Facts₀]

def dot_S256x256_S1024x256_S256x1024_1_1_0_0_n_n : DotDims S256x256 S1024x256 S256x1024 where
  lhsContracting := [1]
  rhsContracting := [1]
  lhsNonContracting := [0]
  rhsNonContracting := [0]
  lhsBatch := []
  rhsBatch := []
  wf := dot_S256x256_S1024x256_S256x1024_1_1_0_0_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x256 : Shape := ⟨2, ![16384, 256]⟩
abbrev S1024x256 : Shape := ⟨2, ![1024, 256]⟩
abbrev S256x1024 : Shape := ⟨2, ![256, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩

abbrev nBuf : Space → Nat
  | .hbm => 43
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S256x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384x1, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x256, .f32⟩
  | .hbm, ⟨42, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]

class Facts₀ : Prop where
  transposes_S1024x256_S256x1024_1_0 : S1024x256.Transposes [1, 0] S256x1024
  reducesTo_S16384x1024_S16384_d1 : S16384x1024.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  bcast_S_S16384x1024 : S_.BroadcastsInDim S16384x1024 (![] : Fin 0 → Fin S16384x1024.rank)
  dot_S16384x256_S256x1024_S16384x1024_1_0_0_1_n_n_wf : DotDims.WF S16384x256 S256x1024 S16384x1024 [1] [0] [0] [1] [] []
  dot_S16384x1024_S1024x256_S16384x256_1_0_0_1_n_n_wf : DotDims.WF S16384x1024 S1024x256 S16384x256 [1] [0] [0] [1] [] []

variable [Facts₀]

def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf
def dot_S16384x1024_S1024x256_S16384x256_1_0_0_1_n_n : DotDims S16384x1024 S1024x256 S16384x256 where
  lhsContracting := [1]
  rhsContracting := [0]
  lhsNonContracting := [0]
  rhsNonContracting := [1]
  lhsBatch := []
  rhsBatch := []
  wf := dot_S16384x1024_S1024x256_S16384x256_1_0_0_1_n_n_wf

class Facts : Prop extends Facts₀ where

variable [Facts]
-- ==== Proof.Spec.lean ====
/-
  Memory-bank attention, one token at a time, on the extended reals.

  For a token's feature row `x` (256 reals) and a bank `B` of 1024 rows of 256 reals:
  the scores are `a j = ∑ k, x k · B j k`; a softmax over the 1024 scores; a soft threshold at `λ`;
  a second softmax; the weighted sum of the bank's rows; `tanh`.  Two spellings of this value are
  written out: the one a fused computation uses (`fusedOut`: the first softmax as a product with the
  reciprocal of the normaliser, the threshold as `max (p − λ) 0`, the second softmax without the
  subtraction of its maximum and with its normaliser applied after the weighted sum) and the textbook
  one (`plainOut`: both softmaxes by subtraction of the maximum and a quotient, the threshold as
  `sign p · max (|p| − λ) 0`).  The float words are kept as the words: the same word on both sides
  denotes the same extended real.
-/
import Idealize.ShloMosaic.PureOps.Ideal

noncomputable section

namespace Cert.BankAttention

open Idealize.ShloMosaic

/-- The word of `1.0`. -/
def wOne : EReal := Ideal.ofBits .f32 0x3F800000#32
/-- The word of `0.0`. -/
def wZero : EReal := Ideal.ofBits .f32 0x00000000#32
/-- The word of `-∞`. -/
def wNegInf : EReal := Ideal.ofBits .f32 0xFF800000#32
/-- The word of the threshold `λ` (the float nearest 0.0025). -/
def wShrink : EReal := Ideal.ofBits .f32 0x3B23D70A#32

/-- A token's scores against the bank: `a j = ∑ k, x k · B j k`. -/
def scores (x : Fin 256 → EReal) (B : Fin 1024 → Fin 256 → EReal) (j : Fin 1024) : EReal :=
  ∑ k : Fin 256, x k * B j k

/-- The running maximum of 1024 values from `-∞`. -/
def foldMax (a : Fin 1024 → EReal) : EReal := (Finset.univ : Finset (Fin 1024)).fold max wNegInf a

/-! ## The fused spelling -/

/-- `exp (a j − max a)`. -/
def fExp (a : Fin 1024 → EReal) (j : Fin 1024) : EReal := Ideal.exp (a j - foldMax a)
/-- The first softmax, as a product with the reciprocal of the normaliser. -/
def fProb (a : Fin 1024 → EReal) (j : Fin 1024) : EReal := fExp a j * Ideal.div wOne (∑ j' : Fin 1024, fExp a j')
/-- The soft threshold of a nonnegative value: `max (p − λ) 0`. -/
def fShrunk (a : Fin 1024 → EReal) (j : Fin 1024) : EReal := max (fProb a j - wShrink) wZero
/-- The second softmax's numerator, with no maximum subtracted. -/
def fWeight (a : Fin 1024 → EReal) (j : Fin 1024) : EReal := Ideal.exp (fShrunk a j)
/-- The fused value at feature `q`: the unnormalised weighted sum of the bank's column `q`, times the reciprocal of the
    second normaliser, under `tanh`. -/
def fusedOut (x : Fin 256 → EReal) (B : Fin 1024 → Fin 256 → EReal) (q : Fin 256) : EReal :=
  Ideal.tanh ((∑ j : Fin 1024, fWeight (scores x B) j * B j q) * Ideal.div wOne (∑ j : Fin 1024, fWeight (scores x B) j))

/-! ## The textbook spelling -/

/-- The maximum as a library softmax takes it: `max (-∞) (running maximum)`. -/
def pMax (a : Fin 1024 → EReal) : EReal := max wNegInf (foldMax a)
/-- `exp (a j − max a)`. -/
def pExp (a : Fin 1024 → EReal) (j : Fin 1024) : EReal := Ideal.exp (a j - pMax a)
/-- A softmax: the quotient by the normaliser, summed from the zero word. -/
def pSoftmax (a : Fin 1024 → EReal) (j : Fin 1024) : EReal := Ideal.div (pExp a j) (wZero + ∑ j' : Fin 1024, pExp a j')
/-- The soft threshold: `sign p · max (|p| − λ) 0`, with `|p| = max p (−p)`. -/
def pShrunk (a : Fin 1024 → EReal) (j : Fin 1024) : EReal :=
  Ideal.sign (pSoftmax a j) * max (max (pSoftmax a j) (-(pSoftmax a j)) - wShrink) wZero
/-- The textbook value at feature `q`. -/
def plainOut (x : Fin 256 → EReal) (B : Fin 1024 → Fin 256 → EReal) (q : Fin 256) : EReal :=
  Ideal.tanh (∑ j : Fin 1024, pSoftmax (pShrunk (scores x B)) j * B j q)

end Cert.BankAttention

end
-- ==== Proof.KernelRow.lean ====
/-
  One sub-block's computation of the fused kernel, as a function of the bank and of a 256-row slab of tokens,
  and its value at an index on the extended reals: row `p`, feature `q` of the result is the fused spelling of
  bank attention (`Cert.BankAttention.fusedOut`) of row `p` of the slab.  The two matrix products are sums over the
  contracted axis, the lane reductions a running maximum and a sum over the 1024 lanes, the keep-dims column
  a broadcast of one value along its row, and the changes of float format the identity.
-/
import proofs.«101959_g57990648430879_cont_sun_c4_352_17_alg».proof.Proof.Gen.KernelIdeal
import proofs.«101959_g57990648430879_cont_sun_c4_352_17_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.FusedChain

open Idealize.ShloMosaic Idealize.ShloMosaic.ValueIdx Cert.KernelIdeal Cert.KernelIdeal.Gen Cert.BankAttention

variable {F : FTy → Type} [FloatOps F]

/-- What the kernel computes for one slab `xs` of 256 tokens against the bank `bk`: scores by a matrix product
    contracting the feature axis of both, softmax along the bank axis with the reciprocal of the row sum, the
    threshold `max (p − λ) 0`, its exponential, the product of those weights with the bank, the row-wise scale by
    the reciprocal of the weights' sum, and `tanh`. -/
def chain (bk : FVec F S1024x256 .bf16) (xs : Vec F S256x256 .f32) : FVec F S256x256 .f32 :=
  have xb : FVec F S256x256 .bf16 := truncf .bf16 xs bitsLt_bf16_f32
  have zs : FVec F S256x1024 .f32 := constant S256x1024 .f32 0x00000000#32
  have a : FVec F S256x1024 .f32 := matmul dot_S256x256_S1024x256_S256x1024_1_1_0_0_n_n none xb bk zs
  have mx : FVec F S256 .f32 := multiReduction .maximumf [1] S256 a 0xFF800000#32 reduces_S256x1024_S256 (.inl rfl) rfl
  have mxc : FVec F S256x1 .f32 := shapeCast S256x1 mx shapeCasts_S256_S256x1
  have mxb : FVec F S256x1024 .f32 := broadcastTo S256x1024 mxc broadcasts_S256x1_S256x1024
  have d : FVec F S256x1024 .f32 := subf a mxb
  have e : FVec F S256x1024 .f32 := exp d
  have z : FVec F S256 .f32 := multiReduction .add [1] S256 e 0x00000000#32 reduces_S256x1024_S256 (.inl rfl) rfl
  have zc : FVec F S256x1 .f32 := shapeCast S256x1 z shapeCasts_S256_S256x1
  have one : F .f32 := Scalar.ofBits .f32 0x3F800000#32
  have ones : FVec F S256x1 .f32 := broadcast S256x1 one
  have rz : FVec F S256x1 .f32 := divf ones zc
  have rzb : FVec F S256x1024 .f32 := broadcastTo S256x1024 rz broadcasts_S256x1_S256x1024
  have p : FVec F S256x1024 .f32 := mulf e rzb
  have lam : F .f32 := Scalar.ofBits .f32 0x3B23D70A#32
  have lams : FVec F S256x1024 .f32 := broadcast S256x1024 lam
  have pl : FVec F S256x1024 .f32 := subf p lams
  have zero : F .f32 := Scalar.ofBits .f32 0x00000000#32
  have zeros : FVec F S256x1024 .f32 := broadcast S256x1024 zero
  have s : FVec F S256x1024 .f32 := maximumf pl zeros
  have w : FVec F S256x1024 .f32 := exp s
  have z2 : FVec F S256 .f32 := multiReduction .add [1] S256 w 0x00000000#32 reduces_S256x1024_S256 (.inl rfl) rfl
  have z2c : FVec F S256x1 .f32 := shapeCast S256x1 z2 shapeCasts_S256_S256x1
  have one2 : F .f32 := Scalar.ofBits .f32 0x3F800000#32
  have ones2 : FVec F S256x1 .f32 := broadcast S256x1 one2
  have rz2 : FVec F S256x1 .f32 := divf ones2 z2c
  have wb : FVec F S256x1024 .bf16 := truncf .bf16 w bitsLt_bf16_f32
  have zo : FVec F S256x256 .f32 := constant S256x256 .f32 0x00000000#32
  have o : FVec F S256x256 .f32 := matmul dot_S256x1024_S1024x256_S256x256_1_0_0_1_n_n none wb bk zo
  have rz2b : FVec F S256x256 .f32 := broadcastTo S256x256 rz2 broadcasts_S256x1_S256x256
  have os : FVec F S256x256 .f32 := mulf o rz2b
  tanh os

/-! ## The operations that are not pointwise, read at an index -/

section Reads
variable {α : Type}

/-- A vector of 256 values viewed as a column `[256, 1]` reads, at `(p, u)`, the vector at `p`: both indices
    have the row-major position `p`. -/
theorem column_apply (x : S256.Idx → α) (h : S256.ShapeCasts S256x1) (p : Fin 256) (u : Fin 1) :
    shapeCast S256x1 x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[256, 1]` broadcast along 1024 lanes reads, at `(p, j)`, the column's row `p`. -/
theorem lanes1024_apply (v : S256x1.Idx → α) (h : S256x1.Broadcasts S256x1024) (p : Fin 256) (j : Fin 1024) :
    broadcastTo S256x1024 v h (ix2 p j) = v (ix2 p (0 : Fin 1)) := by
  refine broadcastTo_apply v h (ix2 p j) (ix2 p (0 : Fin 1)) fun ax => ?_
  match ax with
  | ⟨0, _⟩ =>
    show p.val = if (256 : Nat) = 1 then 0 else p.val
    rw [if_neg (by decide)]
  | ⟨1, _⟩ =>
    show 0 = if (1 : Nat) = 1 then 0 else j.val
    rw [if_pos rfl]

/-- A column `[256, 1]` broadcast along 256 lanes reads, at `(p, q)`, the column's row `p`. -/
theorem lanes256_apply (v : S256x1.Idx → α) (h : S256x1.Broadcasts S256x256) (p : Fin 256) (q : Fin 256) :
    broadcastTo S256x256 v h (ix2 p q) = v (ix2 p (0 : Fin 1)) := by
  refine broadcastTo_apply v h (ix2 p q) (ix2 p (0 : Fin 1)) fun ax => ?_
  match ax with
  | ⟨0, _⟩ =>
    show p.val = if (256 : Nat) = 1 then 0 else p.val
    rw [if_neg (by decide)]
  | ⟨1, _⟩ =>
    show 0 = if (1 : Nat) = 1 then 0 else q.val
    rw [if_pos rfl]

end Reads

/-- The index a reduction along the lanes inserts the lane `j` into, at row `p`, is `(p, j)`. -/
theorem lift_row (h : S256x1024.Reduces [1] S256) (p : Fin 256) (j : Fin 1024) :
    h.lift (ix1 p) j = ix2 p j :=
  funext fun ax => Fin.ext (by match ax with | ⟨0, _⟩ => rfl | ⟨1, _⟩ => rfl)

/-- The maximum along the lanes, at row `p`: the running maximum from `-∞` of the row's 1024 values. -/
theorem laneMax_apply (a : FVec Ideal S256x1024 .f32) (p : Fin 256) :
    multiReduction .maximumf [1] S256 a 0xFF800000#32 reduces_S256x1024_S256 (.inl rfl) rfl (ix1 p)
      = (Finset.univ : Finset (Fin 1024)).fold max (Ideal.ofBits .f32 0xFF800000#32) (fun j => a (ix2 p j)) := by
  refine (Ideal.multiReduction_maximumf_single a _ reduces_S256x1024_S256 _ _ (ix1 p)).trans ?_
  refine congrArg ((Finset.univ : Finset (Fin 1024)).fold max (Ideal.ofBits .f32 0xFF800000#32)) ?_
  funext j
  exact congrArg a (lift_row _ p j)

/-- The sum along the lanes, at row `p`: the sum of the row's 1024 values. -/
theorem laneSum_apply (e : FVec Ideal S256x1024 .f32) (p : Fin 256) :
    multiReduction .add [1] S256 e 0x00000000#32 reduces_S256x1024_S256 (.inl rfl) rfl (ix1 p)
      = ∑ j : Fin 1024, e (ix2 p j) := by
  refine (Ideal.multiReduction_add_single e _ reduces_S256x1024_S256 _ _ (ix1 p)).trans ?_
  exact Finset.sum_congr rfl fun j _ => congrArg e (lift_row _ p j)

/-! ## The two matrix products, read at an index

Each is, at an output index, the sum over the contraction index of the operands' products; the contraction
has one axis, so its index is one coordinate `k`, and the operands' indices at `k` are read off axis by axis. -/

theorem lhs_scores_0 (i : S256x1024.Idx) (c : dot_S256x256_S1024x256_S256x1024_1_1_0_0_n_n.contr.Idx) :
    (dot_S256x256_S1024x256_S256x1024_1_1_0_0_n_n.lhsIdx i c 0).val = (i 0).val := by
  unfold DotDims.lhsIdx
  rw [dif_neg (show ¬(0 : Fin S256x256.rank) ∈ dot_S256x256_S1024x256_S256x1024_1_1_0_0_n_n.lhsBatch by decide),
    dif_pos (show (0 : Fin S256x256.rank) ∈ dot_S256x256_S1024x256_S256x1024_1_1_0_0_n_n.lhsNonContracting by decide)]
  rfl
theorem lhs_scores_1 (i : S256x1024.Idx) (c : dot_S256x256_S1024x256_S256x1024_1_1_0_0_n_n.contr.Idx) :
    (dot_S256x256_S1024x256_S256x1024_1_1_0_0_n_n.lhsIdx i c 1).val = (c ⟨0, by decide⟩).val :=
  dot_S256x256_S1024x256_S256x1024_1_1_0_0_n_n.lhsIdx_val_of_single rfl i c
theorem rhs_scores_0 (i : S256x1024.Idx) (c : dot_S256x256_S1024x256_S256x1024_1_1_0_0_n_n.contr.Idx) :
    (dot_S256x256_S1024x256_S256x1024_1_1_0_0_n_n.rhsIdx i c 0).val = (i 1).val := by
  unfold DotDims.rhsIdx
  rw [dif_neg (show ¬(0 : Fin S1024x256.rank) ∈ dot_S256x256_S1024x256_S256x1024_1_1_0_0_n_n.rhsBatch by decide),
    dif_pos (show (0 : Fin S1024x256.rank) ∈ dot_S256x256_S1024x256_S256x1024_1_1_0_0_n_n.rhsNonContracting by decide)]
  rfl
theorem rhs_scores_1 (i : S256x1024.Idx) (c : dot_S256x256_S1024x256_S256x1024_1_1_0_0_n_n.contr.Idx) :
    (dot_S256x256_S1024x256_S256x1024_1_1_0_0_n_n.rhsIdx i c 1).val = (c ⟨0, by decide⟩).val :=
  dot_S256x256_S1024x256_S256x1024_1_1_0_0_n_n.rhsIdx_val_of_single rfl i c

/-- The scores' product (both operands contracted along their feature axis) at `(p, j)`: the sum over the 256
    features of the slab's row `p` times the bank's row `j`. -/
theorem scores_apply (xb : FVec Ideal S256x256 .bf16) (bk : FVec Ideal S1024x256 .bf16) (p : Fin 256) (j : Fin 1024) :
    matmul dot_S256x256_S1024x256_S256x1024_1_1_0_0_n_n none xb bk (constant (F := Ideal) S256x1024 .f32 0x00000000#32) (ix2 p j)
      = ∑ k : Fin 256, xb (ix2 p k) * bk (ix2 j k) := by
  simp only [matmul]
  rw [Ideal.matmul_constant_zero_apply,
    ← Equiv.sum_comp (contrEquiv1 dot_S256x256_S1024x256_S256x1024_1_1_0_0_n_n 256 rfl rfl).symm]
  refine Finset.sum_congr rfl fun k _ => ?_
  have hk := contrEquiv1_symm_val dot_S256x256_S1024x256_S256x1024_1_1_0_0_n_n 256 rfl rfl k
  have el : dot_S256x256_S1024x256_S256x1024_1_1_0_0_n_n.lhsIdx (ix2 p j)
      ((contrEquiv1 dot_S256x256_S1024x256_S256x1024_1_1_0_0_n_n 256 rfl rfl).symm k) = ix2 p k :=
    funext fun a => Fin.ext (by
      match a with
      | ⟨0, _⟩ => exact lhs_scores_0 _ _
      | ⟨1, _⟩ => exact (lhs_scores_1 _ _).trans hk)
  have er : dot_S256x256_S1024x256_S256x1024_1_1_0_0_n_n.rhsIdx (ix2 p j)
      ((contrEquiv1 dot_S256x256_S1024x256_S256x1024_1_1_0_0_n_n 256 rfl rfl).symm k) = ix2 j k :=
    funext fun a => Fin.ext (by
      match a with
      | ⟨0, _⟩ => exact rhs_scores_0 _ _
      | ⟨1, _⟩ => exact (rhs_scores_1 _ _).trans hk)
  rw [el, er]

theorem lhs_mix_0 (i : S256x256.Idx) (c : dot_S256x1024_S1024x256_S256x256_1_0_0_1_n_n.contr.Idx) :
    (dot_S256x1024_S1024x256_S256x256_1_0_0_1_n_n.lhsIdx i c 0).val = (i 0).val := by
  unfold DotDims.lhsIdx
  rw [dif_neg (show ¬(0 : Fin S256x1024.rank) ∈ dot_S256x1024_S1024x256_S256x256_1_0_0_1_n_n.lhsBatch by decide),
    dif_pos (show (0 : Fin S256x1024.rank) ∈ dot_S256x1024_S1024x256_S256x256_1_0_0_1_n_n.lhsNonContracting by decide)]
  rfl
theorem lhs_mix_1 (i : S256x256.Idx) (c : dot_S256x1024_S1024x256_S256x256_1_0_0_1_n_n.contr.Idx) :
    (dot_S256x1024_S1024x256_S256x256_1_0_0_1_n_n.lhsIdx i c 1).val = (c ⟨0, by decide⟩).val :=
  dot_S256x1024_S1024x256_S256x256_1_0_0_1_n_n.lhsIdx_val_of_single rfl i c
theorem rhs_mix_0 (i : S256x256.Idx) (c : dot_S256x1024_S1024x256_S256x256_1_0_0_1_n_n.contr.Idx) :
    (dot_S256x1024_S1024x256_S256x256_1_0_0_1_n_n.rhsIdx i c 0).val = (c ⟨0, by decide⟩).val :=
  dot_S256x1024_S1024x256_S256x256_1_0_0_1_n_n.rhsIdx_val_of_single rfl i c
theorem rhs_mix_1 (i : S256x256.Idx) (c : dot_S256x1024_S1024x256_S256x256_1_0_0_1_n_n.contr.Idx) :
    (dot_S256x1024_S1024x256_S256x256_1_0_0_1_n_n.rhsIdx i c 1).val = (i 1).val := by
  unfold DotDims.rhsIdx
  rw [dif_neg (show ¬(1 : Fin S1024x256.rank) ∈ dot_S256x1024_S1024x256_S256x256_1_0_0_1_n_n.rhsBatch by decide),
    dif_pos (show (1 : Fin S1024x256.rank) ∈ dot_S256x1024_S1024x256_S256x256_1_0_0_1_n_n.rhsNonContracting by decide)]
  rfl

/-- The weights' product with the bank (the weights' lane axis contracted with the bank's row axis) at `(p, q)`:
    the sum over the 1024 bank rows of the weight at `(p, j)` times the bank at `(j, q)`. -/
theorem mix_apply (wb : FVec Ideal S256x1024 .bf16) (bk : FVec Ideal S1024x256 .bf16) (p q : Fin 256) :
    matmul dot_S256x1024_S1024x256_S256x256_1_0_0_1_n_n none wb bk (constant (F := Ideal) S256x256 .f32 0x00000000#32) (ix2 p q)
      = ∑ j : Fin 1024, wb (ix2 p j) * bk (ix2 j q) := by
  simp only [matmul]
  rw [Ideal.matmul_constant_zero_apply,
    ← Equiv.sum_comp (contrEquiv1 dot_S256x1024_S1024x256_S256x256_1_0_0_1_n_n 1024 rfl rfl).symm]
  refine Finset.sum_congr rfl fun k _ => ?_
  have hk := contrEquiv1_symm_val dot_S256x1024_S1024x256_S256x256_1_0_0_1_n_n 1024 rfl rfl k
  have el : dot_S256x1024_S1024x256_S256x256_1_0_0_1_n_n.lhsIdx (ix2 p q)
      ((contrEquiv1 dot_S256x1024_S1024x256_S256x256_1_0_0_1_n_n 1024 rfl rfl).symm k) = ix2 p k :=
    funext fun a => Fin.ext (by
      match a with
      | ⟨0, _⟩ => exact lhs_mix_0 _ _
      | ⟨1, _⟩ => exact (lhs_mix_1 _ _).trans hk)
  have er : dot_S256x1024_S1024x256_S256x256_1_0_0_1_n_n.rhsIdx (ix2 p q)
      ((contrEquiv1 dot_S256x1024_S1024x256_S256x256_1_0_0_1_n_n 1024 rfl rfl).symm k) = ix2 k q :=
    funext fun a => Fin.ext (by
      match a with
      | ⟨0, _⟩ => exact (rhs_mix_0 _ _).trans hk
      | ⟨1, _⟩ => exact rhs_mix_1 _ _)
  rw [el, er]

/-! ## The chain's stages, each read at an index of row `p`

The scores, the first softmax's exponentials and the second softmax's weights are the three matrices the chain
reduces along the lanes; the chain is the last product of the weights with the bank, scaled and under `tanh`. -/

/-- The scores: the slab (narrowed) times the bank, both contracted along the features. -/
def stScores (bk : FVec Ideal S1024x256 .bf16) (xs : FVec Ideal S256x256 .f32) : FVec Ideal S256x1024 .f32 :=
  matmul dot_S256x256_S1024x256_S256x1024_1_1_0_0_n_n none (truncf .bf16 xs bitsLt_bf16_f32) bk
    (constant S256x1024 .f32 0x00000000#32)

/-- The exponentials of the scores less their row maximum. -/
def stExp (bk : FVec Ideal S1024x256 .bf16) (xs : FVec Ideal S256x256 .f32) : FVec Ideal S256x1024 .f32 :=
  exp (subf (stScores bk xs)
    (broadcastTo S256x1024
      (shapeCast S256x1
        (multiReduction .maximumf [1] S256 (stScores bk xs) 0xFF800000#32 reduces_S256x1024_S256 (.inl rfl) rfl)
        shapeCasts_S256_S256x1)
      broadcasts_S256x1_S256x1024))

/-- The second softmax's weights: the exponential of the thresholded first softmax. -/
def stWeight (bk : FVec Ideal S1024x256 .bf16) (xs : FVec Ideal S256x256 .f32) : FVec Ideal S256x1024 .f32 :=
  exp (maximumf
    (subf
      (mulf (stExp bk xs)
        (broadcastTo S256x1024
          (divf (broadcast S256x1 (Scalar.ofBits (F := Ideal) .f32 0x3F800000#32))
            (shapeCast S256x1
              (multiReduction .add [1] S256 (stExp bk xs) 0x00000000#32 reduces_S256x1024_S256 (.inl rfl) rfl)
              shapeCasts_S256_S256x1))
          broadcasts_S256x1_S256x1024))
      (broadcast S256x1024 (Scalar.ofBits (F := Ideal) .f32 0x3B23D70A#32)))
    (broadcast S256x1024 (Scalar.ofBits (F := Ideal) .f32 0x00000000#32)))

/-- The chain is the weights (narrowed) times the bank, each row scaled by the reciprocal of the weights' row sum,
    under `tanh`. -/
theorem chain_eq (bk : FVec Ideal S1024x256 .bf16) (xs : FVec Ideal S256x256 .f32) :
    chain (F := Ideal) bk xs
      = tanh (mulf
          (matmul dot_S256x1024_S1024x256_S256x256_1_0_0_1_n_n none (truncf .bf16 (stWeight bk xs) bitsLt_bf16_f32) bk
            (constant S256x256 .f32 0x00000000#32))
          (broadcastTo S256x256
            (divf (broadcast S256x1 (Scalar.ofBits (F := Ideal) .f32 0x3F800000#32))
              (shapeCast S256x1
                (multiReduction .add [1] S256 (stWeight bk xs) 0x00000000#32 reduces_S256x1024_S256 (.inl rfl) rfl)
                shapeCasts_S256_S256x1))
            broadcasts_S256x1_S256x256)) := rfl

section Row
variable (bk : FVec Ideal S1024x256 .bf16) (xs : FVec Ideal S256x256 .f32) (p : Fin 256)

/-- Row `p`'s scores are the token's scores against the bank. -/
theorem stScores_apply (j : Fin 1024) :
    stScores bk xs (ix2 p j) = scores (fun k => xs (ix2 p k)) (fun j k => bk (ix2 j k)) j :=
  scores_apply (truncf .bf16 xs bitsLt_bf16_f32) bk p j

/-- Row `p`'s lane maximum is the running maximum of the token's scores. -/
theorem stMax_apply :
    multiReduction .maximumf [1] S256 (stScores bk xs) 0xFF800000#32 reduces_S256x1024_S256 (.inl rfl) rfl (ix1 p)
      = foldMax (scores (fun k => xs (ix2 p k)) (fun j k => bk (ix2 j k))) :=
  (laneMax_apply (stScores bk xs) p).trans
    (congrArg ((Finset.univ : Finset (Fin 1024)).fold max (Ideal.ofBits .f32 0xFF800000#32))
      (funext fun j => stScores_apply bk xs p j))

/-- Row `p`'s exponentials are the fused spelling's. -/
theorem stExp_apply (j : Fin 1024) :
    stExp bk xs (ix2 p j) = fExp (scores (fun k => xs (ix2 p k)) (fun j k => bk (ix2 j k))) j := by
  show Ideal.exp (stScores bk xs (ix2 p j) - broadcastTo S256x1024 _ broadcasts_S256x1_S256x1024 (ix2 p j)) = _
  rw [lanes1024_apply, column_apply, stMax_apply, stScores_apply]
  rfl

/-- Row `p`'s first normaliser is the sum of the fused spelling's exponentials. -/
theorem stExpSum_apply :
    multiReduction .add [1] S256 (stExp bk xs) 0x00000000#32 reduces_S256x1024_S256 (.inl rfl) rfl (ix1 p)
      = ∑ j : Fin 1024, fExp (scores (fun k => xs (ix2 p k)) (fun j k => bk (ix2 j k))) j :=
  (laneSum_apply (stExp bk xs) p).trans (Finset.sum_congr rfl fun j _ => stExp_apply bk xs p j)

/-- Row `p`'s weights are the fused spelling's. -/
theorem stWeight_apply (j : Fin 1024) :
    stWeight bk xs (ix2 p j) = fWeight (scores (fun k => xs (ix2 p k)) (fun j k => bk (ix2 j k))) j := by
  show Ideal.exp (max (stExp bk xs (ix2 p j) * broadcastTo S256x1024 _ broadcasts_S256x1_S256x1024 (ix2 p j)
      - Ideal.ofBits .f32 0x3B23D70A#32) (Ideal.ofBits .f32 0x00000000#32)) = _
  rw [lanes1024_apply]
  show Ideal.exp (max (stExp bk xs (ix2 p j) * Ideal.div (Ideal.ofBits .f32 0x3F800000#32)
      (shapeCast S256x1 _ shapeCasts_S256_S256x1 (ix2 p (0 : Fin 1)))
      - Ideal.ofBits .f32 0x3B23D70A#32) (Ideal.ofBits .f32 0x00000000#32)) = _
  rw [column_apply, stExpSum_apply, stExp_apply]
  rfl

/-- Row `p`'s second normaliser is the sum of the fused spelling's weights. -/
theorem stWeightSum_apply :
    multiReduction .add [1] S256 (stWeight bk xs) 0x00000000#32 reduces_S256x1024_S256 (.inl rfl) rfl (ix1 p)
      = ∑ j : Fin 1024, fWeight (scores (fun k => xs (ix2 p k)) (fun j k => bk (ix2 j k))) j :=
  (laneSum_apply (stWeight bk xs) p).trans (Finset.sum_congr rfl fun j _ => stWeight_apply bk xs p j)

end Row

/-- On the extended reals, row `p`, feature `q` of the slab's result is the fused spelling of bank attention of
    the slab's row `p` against the bank. -/
theorem chain_apply (bk : FVec Ideal S1024x256 .bf16) (xs : FVec Ideal S256x256 .f32) (p q : Fin 256) :
    chain (F := Ideal) bk xs (ix2 p q) = fusedOut (fun k => xs (ix2 p k)) (fun j k => bk (ix2 j k)) q := by
  rw [chain_eq]
  show Ideal.tanh (matmul dot_S256x1024_S1024x256_S256x256_1_0_0_1_n_n none (truncf .bf16 (stWeight bk xs) bitsLt_bf16_f32) bk
      (constant (F := Ideal) S256x256 .f32 0x00000000#32) (ix2 p q)
    * broadcastTo S256x256 _ broadcasts_S256x1_S256x256 (ix2 p q)) = _
  rw [lanes256_apply, mix_apply]
  show Ideal.tanh ((∑ j : Fin 1024, stWeight bk xs (ix2 p j) * bk (ix2 j q))
    * Ideal.div (Ideal.ofBits .f32 0x3F800000#32) (shapeCast S256x1 _ shapeCasts_S256_S256x1 (ix2 p (0 : Fin 1)))) = _
  rw [column_apply, stWeightSum_apply]
  unfold fusedOut wOne
  exact congrArg (fun t => Ideal.tanh (t * _))
    (Finset.sum_congr rfl fun j _ => congrArg (· * bk (ix2 j q)) (stWeight_apply bk xs p j))

end Cert.FusedChain

end
-- ==== Proof.Pieces.lean ====
/-
  The sixteen stores of the kernel body are sixteen copies of ONE computation: each takes 256 consecutive token rows
  of the staged block and the whole bank, and writes the slab's attention output to the same 256 rows of the output
  block.  The printed body spells the copies through differently cut intermediate names; unfolded, each is the same
  function `Cert.FusedChain.chain` of the bank and its slab.  On the extended reals the block the body leaves is
  therefore, row by row, the fused spelling of bank attention of that row of the staged token block.
-/
import proofs.«101959_g57990648430879_cont_sun_c4_352_17_alg».proof.Proof.Gen.KernelIdeal.Frame
import proofs.«101959_g57990648430879_cont_sun_c4_352_17_alg».proof.Proof.KernelRow

set_option maxRecDepth 16384

noncomputable section

namespace Cert.FusedChain

open Idealize.ShloMosaic Idealize.ShloMosaic.ValueIdx Cert.KernelIdeal Cert.KernelIdeal.Gen Cert.BankAttention

variable {F : FTy → Type} [FloatOps F]

/-! ## Each store's value is the slab computation -/

theorem store1 (v0 : Vec F S1024x256 .bf16) (xs : Vec F S256x256 .f32) :
    k0_pay3 v0 xs = chain (k0_pay2 v0) xs := rfl
theorem store2 (v0 : Vec F S1024x256 .bf16) (xs : Vec F S256x256 .f32) :
    k0_pay5 (k0_pay2 v0) (k0_pay4 v0 xs) = chain (k0_pay2 v0) xs := rfl
theorem store3 (bk : FVec F S1024x256 .bf16) (xs : Vec F S256x256 .f32) :
    k0_pay8 bk (k0_pay6 bk xs) (k0_pay7 bk xs) = chain bk xs := rfl
theorem store4 (bk : FVec F S1024x256 .bf16) (xs : Vec F S256x256 .f32) :
    k0_pay9 bk xs = chain bk xs := rfl
theorem store5 (bk : FVec F S1024x256 .bf16) (xs : Vec F S256x256 .f32) :
    k0_pay10 bk xs = chain bk xs := rfl
theorem store6 (bk : FVec F S1024x256 .bf16) (xs : Vec F S256x256 .f32) :
    k0_pay12 bk (k0_pay11 bk xs) = chain bk xs := rfl
theorem store7 (bk : FVec F S1024x256 .bf16) (xs : Vec F S256x256 .f32) :
    k0_pay16 (k0_pay14 bk xs) (k0_pay15 bk xs) = chain bk xs := rfl
theorem store8 (bk : FVec F S1024x256 .bf16) (xs : Vec F S256x256 .f32) :
    k0_pay17 bk xs = chain bk xs := rfl
theorem store9 (bk : FVec F S1024x256 .bf16) (xs : Vec F S256x256 .f32) :
    k0_pay19 bk (k0_pay18 bk xs) = chain bk xs := rfl
theorem store10 (bk : FVec F S1024x256 .bf16) (xs : Vec F S256x256 .f32) :
    k0_pay21 bk (k0_pay20 bk xs) = chain bk xs := rfl
theorem store11 (bk : FVec F S1024x256 .bf16) (xs : Vec F S256x256 .f32) :
    k0_pay22 bk xs = chain bk xs := rfl
theorem store12 (bk : FVec F S1024x256 .bf16) (xs : Vec F S256x256 .f32) :
    k0_pay23 bk xs = chain bk xs := rfl
theorem store13 (bk : FVec F S1024x256 .bf16) (xs : Vec F S256x256 .f32) :
    k0_pay26 bk (k0_pay24 bk xs) (k0_pay25 bk xs) = chain bk xs := rfl
theorem store14 (bk : FVec F S1024x256 .bf16) (xs : Vec F S256x256 .f32) :
    k0_pay30 (k0_pay28 bk xs) (k0_pay29 bk xs) = chain bk xs := rfl
theorem store15 (bk : FVec F S1024x256 .bf16) (xs : Vec F S256x256 .f32) :
    k0_pay31 bk xs = chain bk xs := rfl
theorem store16 (bk : FVec F S1024x256 .bf16) (xs : Vec F S256x256 .f32) :
    k0_pay1 bk (k0_pay32 bk xs) (k0_pay33 bk xs) = chain bk xs := rfl

/-! ## The block the body leaves, on the extended reals -/

/-- Row `y 0`, feature `y 1` of the output block, from the staged token block `x0` and the staged bank `x1`: the fused
    spelling of bank attention of that token row. -/
def blockOut (x0 : Vec Ideal S4096x256 .f32) (x1 : Vec Ideal S1024x256 .bf16) (y : S4096x256.Idx) : Ideal .f32 :=
  fusedOut (fun k : Fin 256 => x0 (ix2 (⟨(y 0).val, (y 0).isLt⟩ : Fin 4096) k)) (fun j k => x1 (ix2 j k))
    (⟨(y 1).val, (y 1).isLt⟩ : Fin 256)

theorem blockOut_ix2 (x0 : Vec Ideal S4096x256 .f32) (x1 : Vec Ideal S1024x256 .bf16) (r : Fin 4096) (q : Fin 256) :
    blockOut x0 x1 (ix2 r q) = fusedOut (fun k : Fin 256 => x0 (ix2 r k)) (fun j k => x1 (ix2 j k)) q := rfl

/-- The slab computation on the 256 rows of the token block that start at row `o`, read at an index of the slab, is the
    block function at the place of the block that index names: the rows of a slab are rows of the block, and a row's
    output depends on that row alone. -/
theorem slab_apply (x0 : Vec Ideal S4096x256 .f32) (bk : FVec Ideal S1024x256 .bf16) (o : Nat)
    (inb : ∀ a, (![o, 0] : Fin 2 → Nat) a + S256x256.size a ≤ S4096x256.size a) (x : S256x256.Idx) :
    chain (F := Ideal) bk (View.ld x0 (Rect.unit (s := S4096x256) ![o, 0] S256x256.size inb)) x
      = blockOut x0 bk ((Rect.unit (s := S4096x256) ![o, 0] S256x256.size inb).emb x) := by
  obtain ⟨p, q, rfl⟩ : ∃ (p q : Fin 256), x = ix2 p q := ⟨x 0, x 1, eq_ix2 x⟩
  rw [chain_apply]
  unfold blockOut
  refine congrArg₂ (fun f z => fusedOut f (fun j k => bk (ix2 j k)) z) ?_ ?_
  · funext k
    refine congrArg x0 (funext fun a => Fin.ext ?_)
    match a with
    | ⟨0, _⟩ => rfl
    | ⟨1, _⟩ => show 0 + 1 * k.val = k.val; omega
  · exact Fin.ext (by show q.val = 0 + 1 * q.val; omega)

theorem zeros2 : (![0, 0] : Fin 2 → Nat) = fun _ => 0 := funext fun a => by fin_cases a <;> rfl

/-- The bank as the body uses it is the staged bank: a load of the whole buffer and a cast to its own shape. -/
theorem bank_eq (x1 : Vec Ideal S1024x256 .bf16) : k0_pay2 (F := Ideal) (View.ld x1 r0_0) = x1 := by
  unfold k0_pay2
  rw [shapeCast_self]
  exact View.ld_unit_zero (S := S1024x256) zeros2 _ x1

/-- The same with the bank spelt as the body spells it. -/
theorem slab_apply' (x0 : Vec Ideal S4096x256 .f32) (x1 : Vec Ideal S1024x256 .bf16) (o : Nat)
    (inb : ∀ a, (![o, 0] : Fin 2 → Nat) a + S256x256.size a ≤ S4096x256.size a) (x : S256x256.Idx) :
    chain (F := Ideal) (k0_pay2 (View.ld x1 r0_0)) (View.ld x0 (Rect.unit (s := S4096x256) ![o, 0] S256x256.size inb)) x
      = blockOut x0 x1 ((Rect.unit (s := S4096x256) ![o, 0] S256x256.size inb).emb x) := by
  rw [bank_eq]
  exact slab_apply x0 x1 o inb x

set_option maxHeartbeats 1000000 in
/-- What the body leaves in the output block: at every index the block function of the two staged inputs. The sixteen
    stores tile the block, each is the slab computation on its rows, and each slab's rows are the block's. -/
theorem out0_2_apply (x0 : Vec Ideal S4096x256 .f32) (x1 : Vec Ideal S1024x256 .bf16) (y : S4096x256.Idx) :
    out0_2 (F := Ideal) x0 x1 y = blockOut x0 x1 y := by
  unfold out0_2
  refine View.canon_apply_of_pieces (Val := Elt Ideal) (blockOut x0 x1) _ ?_ y (cover0_2 (F := Ideal) _ _ _ _ _ _ _ _ _ _ _ _ _ _ _ _ y)
  simp only [List.forall_mem_cons, List.not_mem_nil, IsEmpty.forall_iff, implies_true, and_true]
  refine ⟨?_, ?_, ?_, ?_, ?_, ?_, ?_, ?_, ?_, ?_, ?_, ?_, ?_, ?_, ?_, ?_⟩
  · exact fun x => (congrFun (store16 (F := Ideal) (k0_pay2 (View.ld x1 r0_0)) (View.ld x0 r0_16)) x).trans (slab_apply' x0 x1 3840 inb_S4096x256_S256x256_3840_0 x)
  · exact fun x => (congrFun (store15 (F := Ideal) (k0_pay2 (View.ld x1 r0_0)) (View.ld x0 r0_15)) x).trans (slab_apply' x0 x1 3584 inb_S4096x256_S256x256_3584_0 x)
  · exact fun x => (congrFun (store14 (F := Ideal) (k0_pay2 (View.ld x1 r0_0)) (View.ld x0 r0_14)) x).trans (slab_apply' x0 x1 3328 inb_S4096x256_S256x256_3328_0 x)
  · exact fun x => (congrFun (store13 (F := Ideal) (k0_pay2 (View.ld x1 r0_0)) (View.ld x0 r0_13)) x).trans (slab_apply' x0 x1 3072 inb_S4096x256_S256x256_3072_0 x)
  · exact fun x => (congrFun (store12 (F := Ideal) (k0_pay2 (View.ld x1 r0_0)) (View.ld x0 r0_12)) x).trans (slab_apply' x0 x1 2816 inb_S4096x256_S256x256_2816_0 x)
  · exact fun x => (congrFun (store11 (F := Ideal) (k0_pay2 (View.ld x1 r0_0)) (View.ld x0 r0_11)) x).trans (slab_apply' x0 x1 2560 inb_S4096x256_S256x256_2560_0 x)
  · exact fun x => (congrFun (store10 (F := Ideal) (k0_pay2 (View.ld x1 r0_0)) (View.ld x0 r0_10)) x).trans (slab_apply' x0 x1 2304 inb_S4096x256_S256x256_2304_0 x)
  · exact fun x => (congrFun (store9 (F := Ideal) (k0_pay2 (View.ld x1 r0_0)) (View.ld x0 r0_9)) x).trans (slab_apply' x0 x1 2048 inb_S4096x256_S256x256_2048_0 x)
  · exact fun x => (congrFun (store8 (F := Ideal) (k0_pay2 (View.ld x1 r0_0)) (View.ld x0 r0_8)) x).trans (slab_apply' x0 x1 1792 inb_S4096x256_S256x256_1792_0 x)
  · exact fun x => (congrFun (store7 (F := Ideal) (k0_pay2 (View.ld x1 r0_0)) (View.ld x0 r0_7)) x).trans (slab_apply' x0 x1 1536 inb_S4096x256_S256x256_1536_0 x)
  · exact fun x => (congrFun (store6 (F := Ideal) (k0_pay2 (View.ld x1 r0_0)) (View.ld x0 r0_6)) x).trans (slab_apply' x0 x1 1280 inb_S4096x256_S256x256_1280_0 x)
  · exact fun x => (congrFun (store5 (F := Ideal) (k0_pay2 (View.ld x1 r0_0)) (View.ld x0 r0_5)) x).trans (slab_apply' x0 x1 1024 inb_S4096x256_S256x256_1024_0 x)
  · exact fun x => (congrFun (store4 (F := Ideal) (k0_pay2 (View.ld x1 r0_0)) (View.ld x0 r0_4)) x).trans (slab_apply' x0 x1 768 inb_S4096x256_S256x256_768_0 x)
  · exact fun x => (congrFun (store3 (F := Ideal) (k0_pay2 (View.ld x1 r0_0)) (View.ld x0 r0_3)) x).trans (slab_apply' x0 x1 512 inb_S4096x256_S256x256_512_0 x)
  · exact fun x => (congrFun (store2 (F := Ideal) (View.ld x1 r0_0) (View.ld x0 r0_2)) x).trans (slab_apply' x0 x1 256 inb_S4096x256_S256x256_256_0 x)
  · exact fun x => (congrFun (store1 (F := Ideal) (View.ld x1 r0_0) (View.ld x0 r0_1)) x).trans (slab_apply' x0 x1 0 inb_S4096x256_S256x256_0_0 x)

end Cert.FusedChain

end
-- ==== Proof.KernelValue.lean ====
/-
  The kernel's output array after the run, as ONE function of the two argument arrays: row `r`, feature `q` is the
  fused spelling of bank attention of row `r` of the tokens against the bank.

  The grid walks four blocks of 4096 token rows; point `t` stages block `t` of the tokens and the whole bank (narrowed
  to half precision by the host before the launch, which on the extended reals changes nothing) and writes back block
  `t` of the output.  A row of a block is a row of the array, so what each point writes back is that block of the
  whole-array function; the four blocks cover the array.
-/
import proofs.«101959_g57990648430879_cont_sun_c4_352_17_alg».proof.Proof.Gen.KernelIdeal.Value
import proofs.«101959_g57990648430879_cont_sun_c4_352_17_alg».proof.Proof.Pieces
import Idealize.ShloMosaic.Lib.StableHlo.Run

set_option maxRecDepth 16384

noncomputable section

namespace Cert.KernelIdeal.ArrayValue

open Cert.KernelIdeal Cert.KernelIdeal.Gen Cert.KernelIdeal.Value Cert.FusedChain Cert.BankAttention
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The output array as a function of the token array `X` and the bank `Bk`. -/
def arrayOut (X : S16384x256.Idx → EReal) (Bk : S1024x256.Idx → EReal) : S16384x256.Idx → EReal :=
  fun i => fusedOut (fun k : Fin 256 => X (ix2 (⟨(i 0).val, (i 0).isLt⟩ : Fin 16384) k)) (fun j k => Bk (ix2 j k))
    (⟨(i 1).val, (i 1).isLt⟩ : Fin 256)

theorem arrayOut_ix2 (X : S16384x256.Idx → EReal) (Bk : S1024x256.Idx → EReal) (r : Fin 16384) (q : Fin 256) :
    arrayOut X Bk (ix2 r q) = fusedOut (fun k : Fin 256 => X (ix2 r k)) (fun j k => Bk (ix2 j k)) q := rfl

/-- The fused value depends on the token row, the bank and the feature only through their entries. -/
theorem fusedOut_congr {x x' : Fin 256 → EReal} {B B' : Fin 1024 → Fin 256 → EReal} {q q' : Fin 256}
    (hx : ∀ k, x k = x' k) (hB : ∀ j k, B j k = B' j k) (hq : q = q') : fusedOut x B q = fusedOut x' B' q' := by
  subst hq
  rw [show x = x' from funext hx, show B = B' from funext fun j => funext (hB j)]

/-- The printed index maps over the four grid points: the token window and the output window move together along the
    rows, nothing moves along the features, the bank's window stays at the origin, and the output's block index is the
    point's number. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 3 :=
  (by decide +kernel : ∀ t : Fin grid0.N, _)

/-- Every block of rows is some point's. -/
theorem idx_onto : ∀ q0 : Fin 4, ∃ t : Fin cfg0.N, win0_2.index t (0 : Fin 2) = q0.val :=
  (by decide +kernel : ∀ q0 : Fin 4, ∃ t : Fin grid0.N, win0_2.index t (0 : Fin 2) = q0.val)

/-- What point `t` writes back is block `t` of the whole-array function of the arrays as the launch finds them. -/
theorem flushed_eq (c : Dev nD) (t : Fin cfg0.N) :
    (dats m 0 c).flushed 2 t
      = ((cfg0.win 2).blk t).view.read (Elt Ideal) (arrayOut (V m c main_arg0) (V m c main_v0)) := by
  rw [flushed2]
  obtain ⟨e0, e1, e2, e3, e4, e5⟩ := idx_facts t
  funext j
  show out0_2 (F := Ideal) (iblk m c 0 t) (iblk m c 1 t) j
    = arrayOut (V m c main_arg0) (V m c main_v0) (((cfg0.win 2).blk t).view.emb j)
  rw [out0_2_apply]
  unfold blockOut arrayOut
  refine fusedOut_congr (fun k => ?_) (fun j' k => ?_) ?_
  · show V m c main_arg0 (((cfg0.win 0).blk t).view.emb (ix2 (⟨(j 0).val, (j 0).isLt⟩ : Fin 4096) k)) = _
    refine congrArg (V m c main_arg0) (funext fun a => Fin.ext ?_)
    match a with
    | ⟨0, _⟩ =>
      show win0_0.index t (0 : Fin 2) * 4096 + 1 * (j 0).val = win0_2.index t (0 : Fin 2) * 4096 + 1 * (j 0).val
      omega
    | ⟨1, _⟩ =>
      show win0_0.index t (1 : Fin 2) * 256 + 1 * k.val = k.val
      omega
  · show V m c main_v0 (((cfg0.win 1).blk t).view.emb (ix2 j' k)) = _
    refine congrArg (V m c main_v0) (funext fun a => Fin.ext ?_)
    match a with
    | ⟨0, _⟩ =>
      show win0_1.index t (0 : Fin 2) * 1024 + 1 * j'.val = j'.val
      omega
    | ⟨1, _⟩ =>
      show win0_1.index t (1 : Fin 2) * 256 + 1 * k.val = k.val
      omega
  · refine Fin.ext ?_
    show (j 1).val = win0_2.index t (1 : Fin 2) * 256 + 1 * (j 1).val
    omega

/-- An index of the array is in point `t`'s block iff each coordinate is in the block's range on its axis. -/
theorem mem_blk (t : Fin cfg0.N) (i : S16384x256.Idx) :
    i ∈ ((cfg0.win 2).blk t).view.set ↔ ∀ a : Fin 2, win0_2.index t a * S4096x256.size a ≤ (i a).val
      ∧ (i a).val < win0_2.index t a * S4096x256.size a + S4096x256.size a := by
  show i ∈ ((View.whole main_v1).slice (win0_2.rect t)).set ↔ _
  rw [View.set_slice_whole, Rect.mem_set_unit]
  exact Iff.rfl

/-- The four blocks cover the array: row `r` lies in block `r / 4096`. -/
theorem cover (i : S16384x256.Idx) : ∃ t : Fin cfg0.N, (cfg0.win 2).flush t = true ∧ i ∈ ((cfg0.win 2).blk t).view.set := by
  have hi0 : (i 0).val < 16384 := (i 0).isLt
  have hi1 : (i 1).val < 256 := (i 1).isLt
  obtain ⟨t, ht⟩ := idx_onto ⟨(i 0).val / 4096, by omega⟩
  have q0 : win0_2.index t (0 : Fin 2) = (i 0).val / 4096 := ht
  obtain ⟨e0, e1, e2, e3, e4, e5⟩ := idx_facts t
  refine ⟨t, flush0_2 t, ?_⟩
  rw [mem_blk]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 256 ≤ (i 1).val ∧ (i 1).val < win0_2.index t (1 : Fin 2) * 256 + 256
    omega

/-- The bank the launch finds is the bank argument: the host's narrowing to half precision is the identity on the
    extended reals. -/
theorem V_bank (c : Dev nD) : (V m c main_v0 : S1024x256.Idx → EReal) = m ((c : Thread nD τ).loc main_arg1) := by
  have e : (V m c main_v0 : S1024x256.Idx → EReal)
      = truncf (F := Ideal) .bf16 (m ((c : Thread nD τ).loc main_arg1)) bitsLt_bf16_f32 := by
    dsimp only [Gen.V, Gen.hostOps0]; after_results
  rw [e]
  rfl

/-- THE ARRAY after the run: the whole-array function of the two arguments. -/
theorem final (c : Dev nD) :
    (dats m 0 c).arrAt 2 cfg0.N
      = arrayOut (m ((c : Thread nD τ).loc main_arg0)) (m ((c : Thread nD τ).loc main_arg1)) := by
  rw [(dats m 0 c).arrAt_eq_of_cover 2 (arrayOut (V m c main_arg0) (V m c main_v0)) (fun t _ => flushed_eq m c t) cover,
    V_main_arg0, V_bank]

/-- The kernel's run with its result named: every weakly fair execution terminates with the output array at the
    whole-array function of the arguments, the arguments unchanged. -/
theorem run : θ_run defs (onTc (τ := τ) (main (F := Ideal))) ⟨m, fun _ => 0, ρ⟩ fun r => ∀ c : Dev nD,
      r.2.mem ((c : Thread nD τ).loc main_v1)
        = arrayOut (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.ArrayValue

end
-- ==== Proof.RefRow.lean ====
/-
  The reference program's result, read at row `r`, feature `q`: the textbook spelling of bank attention
  (`Cert.BankAttention.plainOut`) of row `r` of the tokens against the bank.  Its scores are the product of the
  tokens with the transposed bank, its two softmaxes a maximum from `-∞`, an exponential, a sum from zero and a
  quotient, its threshold `sign p · max (|p| − λ) 0`, and its last product contracts the bank axis.

  The reading goes stage by stage at a symbolic index: the scores at `(r, j)`; the maximum of a row as the fold of
  `max` over the row's 1024 coordinates from `-∞`; the first softmax at `(r, j)` (maximum, exponential,
  normaliser, quotient); the threshold at `(r, j)`; the second softmax at `(r, j)`, the same four steps over the
  thresholded row; the contraction with the bank's column `q` and `tanh`.
-/
import proofs.«101959_g57990648430879_cont_sun_c4_352_17_alg».proof.Proof.Gen.ReferenceIdeal.Read
import proofs.«101959_g57990648430879_cont_sun_c4_352_17_alg».proof.Proof.Spec
import Idealize.ShloMosaic.Lib.Pipeline.Value
import Idealize.ShloMosaic.Lib.ValueIdx
import Idealize.ShloMosaic.PureOps.Ideal.Laws

noncomputable section

namespace Cert.PlainRow

open Idealize.ShloMosaic Idealize.ShloMosaic.ValueIdx Cert.ReferenceIdeal Cert.ReferenceIdeal.Gen Cert.ReferenceIdeal.Read
  Cert.BankAttention

section Stages

variable (X : (⟨S16384x256, .f32⟩ : BufTy).Contents (Elt Ideal)) (B : (⟨S1024x256, .f32⟩ : BufTy).Contents (Elt Ideal))

/-- The scores at `(r, j)`: the product with the transposed bank contracts the feature axis, so the element is
    `∑ k, X r k · B j k`. -/
theorem v1_at (r : Fin 16384) (j : Fin 1024) :
    val_main_v1 (F := Ideal) X B (ix2 r j) = scores (fun k => X (ix2 r k)) (fun j k => B (ix2 j k)) j := by
  rw [val_main_v1_apply]
  unfold scores
  refine Finset.sum_congr rfl fun k _ => ?_
  rw [val_main_v0_apply]
  have e1 : lidx_main_v1 (ix2 r j) k = ix2 r k :=
    funext fun a => Fin.ext (by match a with | ⟨0, _⟩ => rfl | ⟨1, _⟩ => rfl)
  have e2 : idx_main_v0 (ridx_main_v1 (ix2 r j) k) = ix2 j k :=
    funext fun a => Fin.ext (by match a with | ⟨0, _⟩ => rfl | ⟨1, _⟩ => rfl)
  rw [e1, e2]

/-- The scores of row `r`, as a function of the bank row. -/
theorem v1_row (r : Fin 16384) :
    (fun j => val_main_v1 (F := Ideal) X B (ix2 r j)) = scores (fun k => X (ix2 r k)) (fun j k => B (ix2 j k)) :=
  funext fun j => v1_at X B r j

/-- A maximum-reduction of a `16384 × 1024` array over its second axis from `-∞`, at row `r`: `max` is
    commutative and associative, so the reduction is the fold of `max` over the row's 1024 coordinates, and the index
    over `r` with coordinate `k` inserted on the reduced axis is `(r, k)`. -/
theorem redmax_at (y : (⟨S16384x1024, .f32⟩ : BufTy).Contents (Elt Ideal)) (r : Fin 16384) :
    Host.reduce (FloatOps.maximumf (F := Ideal) (φ := .f32)) y (constant S_ .f32 0xFF800000#32)
        reducesTo_S16384x1024_S16384_d1 h_S_ (ix1 r)
      = foldMax (fun j => y (ix2 r j)) := by
  have h : S16384x1024.Reduces [1] S16384 := by decide
  refine (Host.reduce_eq_fold_single (FloatOps.maximumf (F := Ideal) (φ := .f32)) y _
    reducesTo_S16384x1024_S16384_d1 h h_S_ (ix1 r)).trans ?_
  have e : ∀ k : Fin 1024, h.lift (ix1 r) k = ix2 r k := fun k =>
    funext fun a => Fin.ext (by match a with | ⟨0, _⟩ => rfl | ⟨1, _⟩ => rfl)
  exact congrArg (fun g : Fin 1024 → EReal => Finset.fold max (Ideal.ofBits FTy.f32 0xFF800000#32) g Finset.univ)
    (funext fun k => congrArg y (e k))

/-! ## The first softmax, over the scores of row `r` -/

/-- Its maximum at row `r`: `max (-∞)` of the running maximum of the row's scores. -/
theorem v4_at (r : Fin 16384) :
    val_main_v4 (F := Ideal) X B (ix1 r) = pMax (fun j => val_main_v1 (F := Ideal) X B (ix2 r j)) := by
  rw [val_main_v4_apply, val_main_v3_apply, val_main_cst_0_apply]
  unfold val_main_v2 val_main_cst
  rw [redmax_at, Ideal.maximumf_def, Ideal.ofBits_def]
  simp only [pMax, wNegInf]

/-- Its exponential at `(r, j)`: the row's maximum is broadcast along the row. -/
theorem v8_at (r : Fin 16384) (j : Fin 1024) :
    val_main_v8 (F := Ideal) X B (ix2 r j) = pExp (fun j => val_main_v1 (F := Ideal) X B (ix2 r j)) j := by
  rw [val_main_v8_apply, val_main_v7_apply, val_main_v6_apply, val_main_v5_apply]
  have e : idx_main_v5 (idx_main_v6 (ix2 r j)) = ix1 r :=
    funext fun a => Fin.ext (by match a with | ⟨0, _⟩ => rfl)
  rw [e, v4_at, Ideal.hostUnary_exp_def, Ideal.subf_def]
  simp only [pExp]

/-- Its normaliser at row `r`: the sum of the row's exponentials from the zero word. -/
theorem v9_at (r : Fin 16384) :
    val_main_v9 (F := Ideal) X B (ix1 r)
      = wZero + ∑ j' : Fin 1024, pExp (fun j => val_main_v1 (F := Ideal) X B (ix2 r j)) j' := by
  rw [val_main_v9_apply, val_main_cst_1_apply]
  refine congrArg (_ + ·) (Finset.sum_congr rfl fun k _ => ?_)
  have e : idx_main_v9 (ix1 r) k = ix2 r k :=
    funext fun a => Fin.ext (by match a with | ⟨0, _⟩ => rfl | ⟨1, _⟩ => rfl)
  rw [e, v8_at]

/-- The first softmax at `(r, j)`: the exponential over the normaliser, broadcast along the row. -/
theorem v12_at (r : Fin 16384) (j : Fin 1024) :
    val_main_v12 (F := Ideal) X B (ix2 r j) = pSoftmax (fun j => val_main_v1 (F := Ideal) X B (ix2 r j)) j := by
  rw [val_main_v12_apply, val_main_v11_apply, val_main_v10_apply]
  have e : idx_main_v10 (idx_main_v11 (ix2 r j)) = ix1 r :=
    funext fun a => Fin.ext (by match a with | ⟨0, _⟩ => rfl)
  rw [e, v8_at, v9_at, Ideal.hostDivf_def]
  simp only [pSoftmax]

/-! ## The soft threshold -/

/-- The threshold at `(r, j)`: `sign p · max (|p| − λ) 0` of the first softmax `p`, with `|p| = max p (−p)`. -/
theorem v19_at (r : Fin 16384) (j : Fin 1024) :
    val_main_v19 (F := Ideal) X B (ix2 r j) = pShrunk (fun j => val_main_v1 (F := Ideal) X B (ix2 r j)) j := by
  rw [val_main_v19_apply, val_main_v13_apply, val_main_v18_apply, val_main_v16_apply, val_main_v14_apply,
    val_main_v15_apply, val_main_v17_apply, val_main_cst_2_apply, val_main_cst_3_apply, v12_at,
    Ideal.mulf_def, Ideal.hostUnary_sign_def, Ideal.maximumf_def, Ideal.subf_def, Ideal.hostAbsf_def, Ideal.absf_def,
    Ideal.ofBits_def, Ideal.ofBits_def]
  simp only [pShrunk, wShrink, wZero]

/-- The thresholded values of row `r`, as a function of the bank row. -/
theorem v19_row (r : Fin 16384) :
    (fun j => val_main_v19 (F := Ideal) X B (ix2 r j))
      = pShrunk (scores (fun k => X (ix2 r k)) (fun j k => B (ix2 j k))) :=
  funext fun j => by rw [v19_at, v1_row]

/-! ## The second softmax, over the thresholded values of row `r` -/

/-- Its maximum at row `r`. -/
theorem v22_at (r : Fin 16384) :
    val_main_v22 (F := Ideal) X B (ix1 r) = pMax (fun j => val_main_v19 (F := Ideal) X B (ix2 r j)) := by
  rw [val_main_v22_apply, val_main_v21_apply, val_main_cst_5_apply]
  unfold val_main_v20 val_main_cst_4
  rw [redmax_at, Ideal.maximumf_def, Ideal.ofBits_def]
  simp only [pMax, wNegInf]

/-- Its exponential at `(r, j)`. -/
theorem v26_at (r : Fin 16384) (j : Fin 1024) :
    val_main_v26 (F := Ideal) X B (ix2 r j) = pExp (fun j => val_main_v19 (F := Ideal) X B (ix2 r j)) j := by
  rw [val_main_v26_apply, val_main_v25_apply, val_main_v24_apply, val_main_v23_apply]
  have e : idx_main_v23 (idx_main_v24 (ix2 r j)) = ix1 r :=
    funext fun a => Fin.ext (by match a with | ⟨0, _⟩ => rfl)
  rw [e, v22_at, Ideal.hostUnary_exp_def, Ideal.subf_def]
  simp only [pExp]

/-- Its normaliser at row `r`. -/
theorem v27_at (r : Fin 16384) :
    val_main_v27 (F := Ideal) X B (ix1 r)
      = wZero + ∑ j' : Fin 1024, pExp (fun j => val_main_v19 (F := Ideal) X B (ix2 r j)) j' := by
  rw [val_main_v27_apply, val_main_cst_6_apply]
  refine congrArg (_ + ·) (Finset.sum_congr rfl fun k _ => ?_)
  have e : idx_main_v27 (ix1 r) k = ix2 r k :=
    funext fun a => Fin.ext (by match a with | ⟨0, _⟩ => rfl | ⟨1, _⟩ => rfl)
  rw [e, v26_at]

/-- The second softmax at `(r, j)`. -/
theorem v30_at (r : Fin 16384) (j : Fin 1024) :
    val_main_v30 (F := Ideal) X B (ix2 r j) = pSoftmax (fun j => val_main_v19 (F := Ideal) X B (ix2 r j)) j := by
  rw [val_main_v30_apply, val_main_v29_apply, val_main_v28_apply]
  have e : idx_main_v28 (idx_main_v29 (ix2 r j)) = ix1 r :=
    funext fun a => Fin.ext (by match a with | ⟨0, _⟩ => rfl)
  rw [e, v26_at, v27_at, Ideal.hostDivf_def]
  simp only [pSoftmax]

end Stages

/-- Row `r`, feature `q` of the reference's result is the textbook spelling of bank attention of the tokens' row `r`
    against the bank. -/
theorem ref_apply (X : (⟨S16384x256, .f32⟩ : BufTy).Contents (Elt Ideal)) (B : (⟨S1024x256, .f32⟩ : BufTy).Contents (Elt Ideal))
    (r : Fin 16384) (q : Fin 256) :
    val_main_v32 (F := Ideal) X B (ix2 r q) = plainOut (fun k => X (ix2 r k)) (fun j k => B (ix2 j k)) q := by
  -- the last product contracts the bank axis: the element is the sum over bank rows of the second softmax times the bank
  rw [val_main_v32_apply, val_main_v31_apply, Ideal.hostUnary_tanh_def]
  unfold plainOut
  refine congrArg Ideal.tanh (Finset.sum_congr rfl fun k _ => ?_)
  have e1 : lidx_main_v31 (ix2 r q) k = ix2 r k :=
    funext fun a => Fin.ext (by match a with | ⟨0, _⟩ => rfl | ⟨1, _⟩ => rfl)
  have e2 : ridx_main_v31 (ix2 r q) k = ix2 k q :=
    funext fun a => Fin.ext (by match a with | ⟨0, _⟩ => rfl | ⟨1, _⟩ => rfl)
  rw [e1, e2, v30_at, v19_row]

end Cert.PlainRow

end
-- ==== Proof.Algebra.lean ====
/-
  The two spellings of bank attention agree on finite inputs.

  With every entry of the token row and of the bank a real number, every intermediate value is a real number:
  the scores are finite sums of products, their maximum is one of them, the exponentials are positive reals and
  the normalisers are positive reals.  Hence: the quotient by the normaliser is the product with its reciprocal;
  the first softmax is positive, so `sign p = 1`, `|p| = p`, and the two thresholds agree; for the second softmax
  `exp (s j − M) / ∑ exp (s j' − M) = exp (s j) / ∑ exp (s j')` for the real maximum `M`; and the reciprocal of the
  normaliser moves out of the finite weighted sum by distributivity, which holds on the reals.
-/
import proofs.«101959_g57990648430879_cont_sun_c4_352_17_alg».proof.Proof.Spec
import Mathlib.Analysis.SpecialFunctions.Exp
import Mathlib.Data.EReal.Operations

noncomputable section

namespace Cert.BankAttention

open Idealize.ShloMosaic

namespace Alg

/-! ## Finite sums and running maxima of real families, seen in the extended reals -/

/-- The embedding of the reals carries a finite sum to the finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The embedding of the reals is monotone, so it carries `max` to `max`. -/
theorem coe_max' (a b : ℝ) : max (a : EReal) (b : EReal) = ((max a b : ℝ) : EReal) :=
  (EReal.coe_strictMono.monotone.map_max).symm

/-- The running maximum from `⊥` of a nonempty finite family of reals is a real. -/
theorem fold_max_coe {ι : Type*} (s : Finset ι) (hs : s.Nonempty) (f : ι → ℝ) :
    ∃ m : ℝ, s.fold max (⊥ : EReal) (fun i => (f i : EReal)) = (m : EReal) := by
  induction hs using Finset.Nonempty.cons_induction with
  | singleton a => exact ⟨f a, by rw [Finset.fold_singleton]; exact max_bot_right _⟩
  | cons a s ha hs ih =>
    obtain ⟨m, hm⟩ := ih
    exact ⟨max (f a) m, by rw [Finset.fold_cons, hm, coe_max']⟩

/-- A positive real is its own absolute value `max p (−p)`. -/
theorem abs_coe_of_pos {p : ℝ} (hp : 0 < p) : max (p : EReal) (-(p : EReal)) = (p : EReal) := by
  rw [← EReal.coe_neg, coe_max', max_eq_left (by linarith)]

/-- A sum of exponentials over a nonempty finite index is positive. -/
theorem sum_exp_pos {ι : Type*} [Fintype ι] [Nonempty ι] (f : ι → ℝ) : 0 < ∑ i, Real.exp (f i) :=
  Finset.sum_pos (fun i _ => Real.exp_pos _) Finset.univ_nonempty

/-- A softmax does not see a common shift of its scores, and its normaliser moves out of a weighted sum:
    `(∑ e^{s j} b j) · (1 / ∑ e^{s j}) = ∑ (e^{s j − M} · (1 / ∑ e^{s j' − M})) · b j`. -/
theorem real_softmax_shift {ι : Type*} [Fintype ι] [Nonempty ι] (s b : ι → ℝ) (M : ℝ) :
    (∑ j, Real.exp (s j) * b j) * (1 / ∑ j, Real.exp (s j))
      = ∑ j, (Real.exp (s j - M) * (1 / ∑ j', Real.exp (s j' - M))) * b j := by
  have h1 : ∀ j, Real.exp (s j - M) = Real.exp (s j) * Real.exp (-M) := fun j => by
    rw [sub_eq_add_neg, Real.exp_add]
  simp only [h1]
  rw [← Finset.sum_mul, Finset.sum_mul]
  have hS := (sum_exp_pos s).ne'
  have hM := (Real.exp_pos (-M)).ne'
  refine Finset.sum_congr rfl fun j _ => ?_
  field_simp

/-! ## The four words -/

/-- The word of `1.0` denotes `1`. -/
theorem wOne_eq : wOne = 1 := by
  unfold wOne; simp [Ideal.ofBits, Ideal.ieee, -EReal.coe_mul]; norm_num

/-- The word of `0.0` denotes `0`. -/
theorem wZero_eq : wZero = 0 := by
  unfold wZero; simp [Ideal.ofBits, Ideal.ieee]

/-- The word of `-∞` denotes `⊥`. -/
theorem wNegInf_eq : wNegInf = ⊥ := by
  unfold wNegInf; simp [Ideal.ofBits, Ideal.ieee]

/-- The threshold's word has an exponent field that is neither all ones nor zero: it denotes a real. -/
theorem wShrink_eq : ∃ l : ℝ, wShrink = (l : EReal) := by
  unfold wShrink Ideal.ofBits Ideal.ieee
  simp only []
  rw [if_neg (by decide), if_neg (by decide)]
  exact ⟨_, rfl⟩

/-! ## The first softmax and the threshold on real scores -/

/-- `max ⊥ y = y`: the textbook maximum is the running maximum. -/
theorem pMax_eq (a : Fin 1024 → EReal) : pMax a = foldMax a := by
  unfold pMax; rw [wNegInf_eq]; exact max_bot_left _

/-- The running maximum of 1024 real scores is a real. -/
theorem foldMax_coe (ar : Fin 1024 → ℝ) : ∃ M : ℝ, foldMax (fun j => (ar j : EReal)) = (M : EReal) := by
  unfold foldMax; rw [wNegInf_eq]; exact fold_max_coe _ Finset.univ_nonempty ar

/-- On real scores both spellings of the softmax are the real `e^{a j − M} · (1 / ∑ e^{a j' − M})`, `M` the maximum. -/
theorem softmax_coe (ar : Fin 1024 → ℝ) : ∃ M : ℝ, ∀ j,
    fProb (fun j => (ar j : EReal)) j
        = ((Real.exp (ar j - M) * (1 / ∑ j', Real.exp (ar j' - M)) : ℝ) : EReal)
      ∧ pSoftmax (fun j => (ar j : EReal)) j
        = ((Real.exp (ar j - M) * (1 / ∑ j', Real.exp (ar j' - M)) : ℝ) : EReal) := by
  obtain ⟨M, hM⟩ := foldMax_coe ar
  have hF : ∀ j, fExp (fun j => (ar j : EReal)) j = ((Real.exp (ar j - M) : ℝ) : EReal) := fun j => by
    unfold fExp; rw [hM, ← EReal.coe_sub, Ideal.exp_coe]
  have hP : ∀ j, pExp (fun j => (ar j : EReal)) j = ((Real.exp (ar j - M) : ℝ) : EReal) := fun j => by
    unfold pExp; rw [pMax_eq, hM, ← EReal.coe_sub, Ideal.exp_coe]
  have hS : (∑ j', Real.exp (ar j' - M)) ≠ 0 := (sum_exp_pos fun j' => ar j' - M).ne'
  refine ⟨M, fun j => ⟨?_, ?_⟩⟩
  · unfold fProb
    simp only [hF]
    rw [wOne_eq, ← coe_sum, Ideal.div_coe hS, one_mul, EReal.coe_mul]
  · unfold pSoftmax
    simp only [hP]
    rw [wZero_eq, zero_add, ← coe_sum, Ideal.div_coe hS, EReal.coe_mul]

/-- The first softmax is positive, so its sign is `1` and its absolute value is itself: the two thresholds are one
    real family. -/
theorem shrunk_coe (ar : Fin 1024 → ℝ) : ∃ s : Fin 1024 → ℝ,
    fShrunk (fun j => (ar j : EReal)) = (fun j => (s j : EReal))
      ∧ pShrunk (fun j => (ar j : EReal)) = (fun j => (s j : EReal)) := by
  obtain ⟨M, hM⟩ := softmax_coe ar
  obtain ⟨l, hl⟩ := wShrink_eq
  have hpos : ∀ j, 0 < Real.exp (ar j - M) * (1 / ∑ j', Real.exp (ar j' - M)) := fun j =>
    mul_pos (Real.exp_pos _) (one_div_pos.mpr (sum_exp_pos fun j' => ar j' - M))
  refine ⟨fun j => max (Real.exp (ar j - M) * (1 / ∑ j', Real.exp (ar j' - M)) - l) 0,
    funext fun j => ?_, funext fun j => ?_⟩
  · unfold fShrunk
    rw [(hM j).1, hl, wZero_eq, ← EReal.coe_sub, ← EReal.coe_zero, coe_max']
  · unfold pShrunk
    rw [(hM j).2, hl, wZero_eq, Ideal.sign_coe, sign_pos (hpos j), SignType.coe_one, EReal.coe_one, one_mul,
      abs_coe_of_pos (hpos j), ← EReal.coe_sub, ← EReal.coe_zero, coe_max']

/-! ## The scores, and the two values -/

/-- The scores of a real row against a real bank are the real sums of products. -/
theorem scores_coe (xr : Fin 256 → ℝ) (Br : Fin 1024 → Fin 256 → ℝ) :
    scores (fun k => (xr k : EReal)) (fun j k => (Br j k : EReal))
      = fun j => ((∑ k, xr k * Br j k : ℝ) : EReal) := by
  funext j
  unfold scores
  rw [coe_sum]
  exact Finset.sum_congr rfl fun k _ => (EReal.coe_mul _ _).symm

end Alg

open Alg in
/-- On a token row and a bank of real numbers the fused and the textbook spelling are one value. -/
theorem fusedOut_eq_plainOut (x : Fin 256 → EReal) (B : Fin 1024 → Fin 256 → EReal)
    (hx : ∀ k, ∃ r : ℝ, x k = (r : EReal)) (hB : ∀ j k, ∃ r : ℝ, B j k = (r : EReal)) (q : Fin 256) :
    fusedOut x B q = plainOut x B q := by
  choose xr hxr using hx
  choose Br hBr using hB
  obtain rfl : x = fun k => (xr k : EReal) := funext hxr
  obtain rfl : B = fun j k => (Br j k : EReal) := funext fun j => funext (hBr j)
  obtain ⟨s, hf, hp⟩ := shrunk_coe (fun j => ∑ k, xr k * Br j k)
  obtain ⟨M, hM⟩ := softmax_coe s
  have hS : (∑ j, Real.exp (s j)) ≠ 0 := (sum_exp_pos s).ne'
  have hW : ∀ j, fWeight (fun j => ((∑ k, xr k * Br j k : ℝ) : EReal)) j = ((Real.exp (s j) : ℝ) : EReal) :=
    fun j => by unfold fWeight; rw [hf, Ideal.exp_coe]
  have hQ : ∀ j, pSoftmax (fun j => (s j : EReal)) j
      = ((Real.exp (s j - M) * (1 / ∑ j', Real.exp (s j' - M)) : ℝ) : EReal) := fun j => (hM j).2
  unfold fusedOut plainOut
  rw [scores_coe, hp]
  simp only [hW, hQ, ← EReal.coe_mul]
  rw [wOne_eq, ← coe_sum, ← coe_sum, ← coe_sum, Ideal.div_coe hS, one_mul, ← EReal.coe_mul,
    real_softmax_shift s (fun j => Br j q) M]

end Cert.BankAttention

end
-- ==== Proof.Finite.lean ====
/-
  The precondition says that every entry of both argument arrays has absolute value below `+∞`.  On the extended
  reals `|x| = max x (−x)` is `+∞` at both infinities, so such an entry is a real number.
-/
import proofs.«101959_g57990648430879_cont_sun_c4_352_17_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.FiniteInputs

open Idealize.ShloMosaic Cert.Pre_finite_inputs

instance : Subsingleton S_.Idx := ⟨fun a b => funext fun d => d.elim0⟩

/-- An extended real whose absolute value compares below the word of `+∞` is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

variable [Cert.Pre_finite_inputs.Facts]

/-- Under the precondition every entry of the tokens and of the bank is a real number. -/
theorem real_of_pre (X : FVec Ideal S16384x256 .f32) (B : FVec Ideal S1024x256 .f32)
    (h : fn (F := Ideal) X B = fun _ => 1#1) :
    (∀ i, ∃ r : ℝ, X i = (r : EReal)) ∧ (∀ i, ∃ r : ℝ, B i = (r : EReal)) := by
  have h0 := congrFun h ValueIdx.ix0
  dsimp only [fn] at h0
  obtain ⟨hX, hB⟩ := IntOp.andi_eq_one.mp h0
  refine ⟨fun i => ?_, fun i => ?_⟩
  · exact real_of_abs_lt_top (X i) (Host.reduce_andi_all _ _ _ _ _ hX i)
  · exact real_of_abs_lt_top (B i) (Host.reduce_andi_all _ _ _ _ _ hB i)

end Cert.FiniteInputs

end
-- ==== Proof.lean ====
/-
  The certificate of the fused memory-bank attention kernel against its reference:
  `out = tanh (softmax (softshrink (softmax (x · bankᵀ))) · bank)`, row by row over 16384 tokens.

  The three frames are the generated ones (the reference's is its generated run with the result dropped), and the
  idealization rewrote nothing.  The value claim: on the extended reals the kernel's output array is, row by row, the
  fused spelling of bank attention of that token row — its sixteen sub-block computations per grid point are one
  function, a row's output depends on that row and the bank only, and the four blocks cover the array —, the reference's
  result is the textbook spelling, and the two spellings agree wherever every entry of the tokens and of the bank is a
  real number, which the precondition says.
-/
import proofs.«101959_g57990648430879_cont_sun_c4_352_17_alg».proof.Defs
import proofs.«101959_g57990648430879_cont_sun_c4_352_17_alg».proof.Proof.Gen.Kernel
import proofs.«101959_g57990648430879_cont_sun_c4_352_17_alg».proof.Proof.Gen.Kernel.Frame
import proofs.«101959_g57990648430879_cont_sun_c4_352_17_alg».proof.Proof.Gen.KernelIdeal
import proofs.«101959_g57990648430879_cont_sun_c4_352_17_alg».proof.Proof.Gen.KernelIdeal.Frame
import proofs.«101959_g57990648430879_cont_sun_c4_352_17_alg».proof.Proof.Gen.KernelIdeal.Value
import proofs.«101959_g57990648430879_cont_sun_c4_352_17_alg».proof.Proof.Gen.ReferenceIdeal
import proofs.«101959_g57990648430879_cont_sun_c4_352_17_alg».proof.Proof.Gen.ReferenceIdeal.Run
import proofs.«101959_g57990648430879_cont_sun_c4_352_17_alg».proof.Proof.Gen.ReferenceIdeal.Read
import proofs.«101959_g57990648430879_cont_sun_c4_352_17_alg».proof.Proof.Gen.Pre_finite_inputs
import proofs.«101959_g57990648430879_cont_sun_c4_352_17_alg».proof.Proof.KernelValue
import proofs.«101959_g57990648430879_cont_sun_c4_352_17_alg».proof.Proof.RefRow
import proofs.«101959_g57990648430879_cont_sun_c4_352_17_alg».proof.Proof.Algebra
import proofs.«101959_g57990648430879_cont_sun_c4_352_17_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- On arrays of real numbers the reference's result and the kernel's whole-array function are one array: at row `r`,
    feature `q` the textbook and the fused spelling of bank attention of row `r`. -/
theorem ref_eq_kernel (X : (⟨2, ![16384, 256]⟩ : Shape).Idx → EReal) (B : (⟨2, ![1024, 256]⟩ : Shape).Idx → EReal)
    (hX : ∀ i, ∃ r : ℝ, X i = (r : EReal)) (hB : ∀ i, ∃ r : ℝ, B i = (r : EReal)) :
    Cert.ReferenceIdeal.Read.val_main_v32 (F := Ideal) X B = Cert.KernelIdeal.ArrayValue.arrayOut X B := by
  funext i
  obtain ⟨r, q, rfl⟩ : ∃ (r : Fin 16384) (q : Fin 256), i = ix2 r q := ⟨i 0, i 1, eq_ix2 i⟩
  rw [Cert.PlainRow.ref_apply, Cert.KernelIdeal.ArrayValue.arrayOut_ix2]
  exact (Cert.BankAttention.fusedOut_eq_plainOut _ _ (fun k => hX _) (fun j k => hB _) q).symm

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs run; the kernel's output array ends at the whole-array function of its arguments, the
    reference's result at its composed term of arguments that agree with them, and under the precondition the two are
    one array. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hB⟩ := Cert.FiniteInputs.real_of_pre _ _ (hpre c)
  rw [Cert.ReferenceIdeal.Read.val_main_v32_eq, (hagree c).1, (hagree c).2]
  exact ref_eq_kernel _ _ hX hB

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
